-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S64 : Shape := ⟨1, ![64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x4096 .f32) (main_arg1 : FVec F S64x4096 .f32) (main_arg2 : FVec F S64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S64 : Shape := ⟨1, ![64]⟩
abbrev S1x64 : Shape := ⟨2, ![1, 64]⟩
abbrev S4096x64 : Shape := ⟨2, ![4096, 64]⟩
abbrev S256x4096 : Shape := ⟨2, ![256, 4096]⟩
abbrev S1024x64 : Shape := ⟨2, ![1024, 64]⟩
abbrev S256x64 : Shape := ⟨2, ![256, 64]⟩

abbrev nBuf : Space → Nat
  | .hbm => 5
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S64x4096, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S256x4096_S256x4096_0_0 : ∀ a, (![0, 0] : Fin 2 → Nat) a + S256x4096.size a ≤ S256x4096.size a
  h_S256x4096 : 0 < S256x4096.numel
  broadcasts_S1x64_S256x64 : S1x64.Broadcasts S256x64
  inb_S1024x64_S256x64_0_0 : ∀ a, (![0, 0] : Fin 2 → Nat) a + S256x64.size a ≤ S1024x64.size a
  h_S256x64 : 0 < S256x64.numel
  inb_S1024x64_S256x64_256_0 : ∀ a, (![256, 0] : Fin 2 → Nat) a + S256x64.size a ≤ S1024x64.size a
  inb_S1024x64_S256x64_512_0 : ∀ a, (![512, 0] : Fin 2 → Nat) a + S256x64.size a ≤ S1024x64.size a
  inb_S1024x64_S256x64_768_0 : ∀ a, (![768, 0] : Fin 2 → Nat) a + S256x64.size a ≤ S1024x64.size a
  dot_S256x4096_S64x4096_S256x64_1_1_0_0_n_n_wf : DotDims.WF S256x4096 S64x4096 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S4096x64.size a
  hwx0_6 : ∀ i : grid0.Coords, EltTy.bits .f32 = 32 ∨ (Rect.block (s := S4096x64) S1024x64.size (cc0_transform_6 i) (hinb0_6 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S4096x64, .f32⟩
  | .hbm, ⟨5, _⟩ => ⟨S1x64, .f32⟩
  | .hbm, ⟨6, _⟩ => ⟨S4096x64, .f32⟩
  | .hbm, ⟨7, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KB.Entry.lean ====
/-
  The program up to its one kernel region. Before the region @main reshapes the bias vector (64) into a row (1 × 64); it
  writes no argument array, so the region finds x, w and b as launched. Each input window's staging buffer holds, at
  every grid point, the block of its array that the window's index map names there: windows 0 … 3 the four consecutive
  256-row blocks 4t, 4t + 1, 4t + 2, 4t + 3 of x, window 4 all of w, window 5 the bias row.
-/
import proofs.«113524_g17729624998151_cont_sun_m_218_22_alg».proof.Proof.Gen.Kernel.Launch
import proofs.«113524_g17729624998151_cont_sun_m_218_22_alg».proof.Proof.Gen.Kernel.Points
import Idealize.ShloMosaic.Lib.Pipeline.FrameBody

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the one reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape before the region does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The reshape before the region does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The reshape before the region does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block of the array at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block of the array at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block of the array at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block of the array at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block of the array at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block of the array at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Run

end
-- ==== Proof.KB.Body.lean ====
/-
  What one grid point's body leaves in the output block. The body loads the 64 × 4096 array w and the 1 × 64 bias row
  once, then for each of the four loaded 256 × 4096 blocks of x stores (block · wᵀ) + bias into the rows
  [256·s, 256·s + 256) of the 1024 × 64 output block, s = 0, 1, 2, 3. The four stored rectangles tile the output block,
  so after the body the block is the overlay of the four products, whatever it held before (the body also loads each
  rectangle of the output block before storing into it; those loaded values are used nowhere).
-/
import proofs.«113524_g17729624998151_cont_sun_m_218_22_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 256 × 4096 block of x. -/
abbrev rX : Rect S256x4096 := Rect.unit (s := S256x4096) ![0, 0] S256x4096.size inb_S256x4096_S256x4096_0_0
/-- The whole of w. -/
abbrev rW : Rect S64x4096 := Rect.unit (s := S64x4096) ![0, 0] S64x4096.size inb_S64x4096_S64x4096_0_0
/-- The whole bias row. -/
abbrev rB : Rect S1x64 := Rect.unit (s := S1x64) ![0, 0] S1x64.size inb_S1x64_S1x64_0_0
/-- Rows [0, 256) of the output block. -/
abbrev rO0 : Rect S1024x64 := Rect.unit (s := S1024x64) ![0, 0] S256x64.size inb_S1024x64_S256x64_0_0
/-- Rows [256, 512). -/
abbrev rO1 : Rect S1024x64 := Rect.unit (s := S1024x64) ![256, 0] S256x64.size inb_S1024x64_S256x64_256_0
/-- Rows [512, 768). -/
abbrev rO2 : Rect S1024x64 := Rect.unit (s := S1024x64) ![512, 0] S256x64.size inb_S1024x64_S256x64_512_0
/-- Rows [768, 1024). -/
abbrev rO3 : Rect S1024x64 := Rect.unit (s := S1024x64) ![768, 0] S256x64.size inb_S1024x64_S256x64_768_0

/-! ## The output block after the body -/

/-- The output block after the body, from the four blocks of x, w and the bias row: the four stored products, the
    last store first. -/
def outBlock (x0 x1 x2 x3 : Vec F S256x4096 .f32) (xw : Vec F S64x4096 .f32) (xb : Vec F S1x64 .f32) : Vec F S1024x64 .f32 :=
  View.canon [⟨rO3, k0_pay5 (View.ld xw rW) (View.ld xb rB) (View.ld x3 rX)⟩,
    ⟨rO2, k0_pay4 (View.ld xw rW) (View.ld xb rB) (View.ld x2 rX)⟩,
    ⟨rO1, k0_pay3 (View.ld xw rW) (View.ld xb rB) (View.ld x1 rX)⟩,
    ⟨rO0, k0_pay2 (View.ld xw rW) (View.ld xb rB) (View.ld x0 rX)⟩]

/-- The four stored rectangles tile the output block, so every index of it lies in one of them. -/
theorem outBlock_cover (p3 p2 p1 p0 : Vec F S256x64 .f32) (y : S1024x64.Idx) :
    ∃ pc ∈ ([⟨rO3, p3⟩, ⟨rO2, p2⟩, ⟨rO1, p1⟩, ⟨rO0, p0⟩] : List (View.Piece (Elt F) S1024x64 .f32)), y ∈ pc.1.set :=
  View.cover_of_tiled [⟨rO3, p3⟩, ⟨rO2, p2⟩, ⟨rO1, p1⟩, ⟨rO0, p0⟩] S256x64.size (by rfl) y

/-! ## The body's triple -/

set_option maxHeartbeats 1000000 in
/-- The body on whole buffers: the six input buffers at read contents x0 … x3, xw, xb and the output buffer at anything;
    it ends with the inputs as they were and the output buffer at `outBlock` of them. -/
theorem sound_kernel (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S64x4096 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S256x4096 .f32) (xw : Vec F S64x4096 .f32) (xb : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ owns (c : Thread nD τ) arg6 fullShare xb
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw ∗ owns (c : Thread nD τ) arg6 fullShare xb
            ∗ owns (c : Thread nD τ) arg7 fullShare (outBlock x0 x1 x2 x3 xw xb)) -∗ K ⟨⟩))
      ⊢ wp frame (wpE (defs₀ (F := F)) Variants.none c none) E
          (cc0__matmul_body i arg1 harg1 arg2 harg2 arg3 harg3 arg4 harg4 arg5 harg5 arg6 harg6 arg7 harg7) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _ _ _ _)

end Cert.Kernel.Run

end
-- ==== Proof.LibSharedFrame.lean ====
/-
  A pipelined kernel whose INPUT windows read one array: the launch of its one region, and the array's share dealt
  among the windows on it.

  * `frame_run_shared`: for a kernel with no semaphore and no table of its own, whose windows may stand on a common
    array, whose invariant between grid points is just the scoped buffers it does not stage (`scopedRest`), and whose
    proof data say how the buffers behind the arrays make the windows' arrays at entry (`hsplit`): every weakly fair
    execution of @main terminates, each window's array ends at what the proof data compute for it (`Dat.arrAt … N`),
    and every other unscoped buffer ends as the region found it.
  * `pointsTo_quarter`: one buffer held whole at the full share is four holdings of it at the four quarter shares
    (left-left, left-right, right-left, right-right): what four read-only windows on one array are dealt.
-/
import Idealize.ShloMosaic.Lib.Pipeline.Frame

noncomputable section

namespace Cert.Lib.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The four quarters of the full share. -/
abbrev qLL : PosShare TreeShare := fullShare.left.left
abbrev qLR : PosShare TreeShare := fullShare.left.right
abbrev qRL : PosShare TreeShare := fullShare.right.left
abbrev qRR : PosShare TreeShare := fullShare.right.right

/-- A region of a buffer held at the full share is the same region held four times, once at each quarter share. -/
theorem pointsTo_quarter {ℓ : Loc nD τ sig} (I : Finset (Idx ℓ)) (f : Buf Val ℓ) :
    (ℓ ↦[I]{fullShare} f : sProp 𝕄) ⊢ iprop((ℓ ↦[I]{qLL} f) ∗ (ℓ ↦[I]{qLR} f) ∗ (ℓ ↦[I]{qRL} f) ∗ (ℓ ↦[I]{qRR} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- The run of a one-region program whose kernel's windows may share arrays (see the header). -/
theorem frame_run_shared
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KB.Data.lean ====
/-
  The pipeline's proof data on one core. The arrays are as the region finds them. After the body at grid point t each
  input window's buffer still holds its block, and the output window's buffer holds the four products of that point.
  Between points the kernel keeps nothing of its own. The four windows on x only read it, so the whole of x, held at the
  full share at entry, is dealt among them in four quarter shares; w, the bias row and the output array are each one
  window's, at the full share.
-/
import proofs.«113524_g17729624998151_cont_sun_m_218_22_alg».proof.Proof.KB.Entry
import proofs.«113524_g17729624998151_cont_sun_m_218_22_alg».proof.Proof.KB.Body
import proofs.«113524_g17729624998151_cont_sun_m_218_22_alg».proof.Proof.LibSharedFrame

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.SharedFrame (qLL qLR qRL qRR pointsTo_quarter)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => qLL
    | ⟨1, _⟩ => qLR
    | ⟨2, _⟩ => qRL
    | ⟨3, _⟩ => qRR
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The arrays at entry, dealt to the windows -/

/-- The distinct buffers behind the seven windows' arrays: x, w, the bias row and the output array. -/
theorem arrRefs_eq : (Finset.univ.image (Pipeline.arrRef spec0) : Finset (Ref sig .tc)) = [main_arg0, main_arg1, main_call0_v0, main_v0].toFinset := by
  decide

/-- A conjunction over those four buffers, one by one. -/
theorem bigSep_arrRefs {M : Type} [URA M] (Φ : Ref sig .tc → sProp M) :
    bigSep (Finset.univ.image (Pipeline.arrRef spec0)) Φ = iprop(Φ main_arg0 ∗ Φ main_arg1 ∗ Φ main_call0_v0 ∗ Φ main_v0) :=
  bigSep_eq_bigSepL_of_eq [main_arg0, main_arg1, main_call0_v0, main_v0] arrRefs_eq (by decide) Φ

/-- Window w's array at entry, as a holding of the whole buffer behind it at the window's share. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := by
  have h : (cfg0.win w).arr.view.set = Finset.univ := (arr_whole0 w).set_eq_univ
  rw [h]; rfl

/-- Before any write-back a window's array is the entry contents. -/
theorem arrAt0 (c : Dev nD) (w : Fin cfg0.W) : (dats m 0 c).arrAt w 0 = V m c (Pipeline.arrRef spec0 w) := rfl

theorem share0 (c : Dev nD) : (dats m 0 c).share 0 = qLL := rfl
theorem share1 (c : Dev nD) : (dats m 0 c).share 1 = qLR := rfl
theorem share2 (c : Dev nD) : (dats m 0 c).share 2 = qRL := rfl
theorem share3 (c : Dev nD) : (dats m 0 c).share 3 = qRR := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The buffers behind the arrays, each whole at the full share at the entry contents, make the seven windows' arrays at
    entry: x's full share splits into the four quarters of windows 0 … 3. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0]
  rw [share0, share1, share2, share3, share4, share5, share6]
  simp only [View.set_whole, arrAt0]
  iintro ⟨Hx, Hw, Hb, Ho⟩
  ihave Hx := (pointsTo_quarter (Val := Elt F) Finset.univ (V m c main_arg0)) $$ Hx
  icases Hx with ⟨H0, H1, H2, H3⟩
  isplitl [H0]; · iexact H0
  isplitl [H1]; · iexact H1
  isplitl [H2]; · iexact H2
  isplitl [H3]; · iexact H3
  isplitl [Hw]; · iexact Hw
  isplitl [Hb]; · iexact Hb
  iexact Ho

end Cert.Kernel.Run

end
-- ==== Proof.KB.Main.lean ====
/-
  The run of the kernel's program. At every grid point the body finds the six input buffers at their blocks and leaves
  them so, and leaves the output buffer at the four products of the point; the pipeline writes that buffer back into rows
  [1024·t, 1024·t + 1024) of the output array. So every weakly fair execution terminates with the three argument arrays
  unchanged and the output array at what the write-backs of the four points make of it.
-/
import proofs.«113524_g17729624998151_cont_sun_m_218_22_alg».proof.Proof.KB.Data

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each window's array ends at what the proof data compute for it and
    every other unscoped buffer as the region found it. -/
theorem run_main : θ_run defs (onTc (τ := τ) (main (F := F))) (s₀ m ρ) (Pipeline.FramePost cfgs (dats m) 0 (V m)) :=
  Cert.Lib.SharedFrame.frame_run_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- info: 'Cert.Kernel.Run.run_main' depends on axioms: [propext, Classical.choice, Quot.sound] -/
#guard_msgs in #print axioms run_main

/-- The run with the output array named and the three arguments unchanged: x and w are windows' arrays the pipeline only
    reads, b is no window's array and bypasses the region. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c)⟩) (run_main m ρ)

/-- The frame: the program runs to the end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Run

end
-- ==== Proof.KI.Entry.lean ====
/-
  The program up to its one kernel region. Before the region @main reshapes the bias vector (64) into a row (1 × 64); it
  writes no argument array, so the region finds x, w and b as launched. Each input window's staging buffer holds, at
  every grid point, the block of its array that the window's index map names there: windows 0 … 3 the four consecutive
  256-row blocks 4t, 4t + 1, 4t + 2, 4t + 3 of x, window 4 all of w, window 5 the bias row.
-/
import proofs.«113524_g17729624998151_cont_sun_m_218_22_alg».proof.Proof.Gen.KernelIdeal.Launch
import proofs.«113524_g17729624998151_cont_sun_m_218_22_alg».proof.Proof.Gen.KernelIdeal.Points
import Idealize.ShloMosaic.Lib.Pipeline.FrameBody

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch contents after the one reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape before the region does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The reshape before the region does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The reshape before the region does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block of the array at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block of the array at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block of the array at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block of the array at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block of the array at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block of the array at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Run

end
-- ==== Proof.KI.Body.lean ====
/-
  What one grid point's body leaves in the output block. The body loads the 64 × 4096 array w and the 1 × 64 bias row
  once, then for each of the four loaded 256 × 4096 blocks of x stores (block · wᵀ) + bias into the rows
  [256·s, 256·s + 256) of the 1024 × 64 output block, s = 0, 1, 2, 3. The four stored rectangles tile the output block,
  so after the body the block is the overlay of the four products, whatever it held before (the body also loads each
  rectangle of the output block before storing into it; those loaded values are used nowhere).
-/
import proofs.«113524_g17729624998151_cont_sun_m_218_22_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 256 × 4096 block of x. -/
abbrev rX : Rect S256x4096 := Rect.unit (s := S256x4096) ![0, 0] S256x4096.size inb_S256x4096_S256x4096_0_0
/-- The whole of w. -/
abbrev rW : Rect S64x4096 := Rect.unit (s := S64x4096) ![0, 0] S64x4096.size inb_S64x4096_S64x4096_0_0
/-- The whole bias row. -/
abbrev rB : Rect S1x64 := Rect.unit (s := S1x64) ![0, 0] S1x64.size inb_S1x64_S1x64_0_0
/-- Rows [0, 256) of the output block. -/
abbrev rO0 : Rect S1024x64 := Rect.unit (s := S1024x64) ![0, 0] S256x64.size inb_S1024x64_S256x64_0_0
/-- Rows [256, 512). -/
abbrev rO1 : Rect S1024x64 := Rect.unit (s := S1024x64) ![256, 0] S256x64.size inb_S1024x64_S256x64_256_0
/-- Rows [512, 768). -/
abbrev rO2 : Rect S1024x64 := Rect.unit (s := S1024x64) ![512, 0] S256x64.size inb_S1024x64_S256x64_512_0
/-- Rows [768, 1024). -/
abbrev rO3 : Rect S1024x64 := Rect.unit (s := S1024x64) ![768, 0] S256x64.size inb_S1024x64_S256x64_768_0

/-! ## The output block after the body -/

/-- The output block after the body, from the four blocks of x, w and the bias row: the four stored products, the
    last store first. -/
def outBlock (x0 x1 x2 x3 : Vec F S256x4096 .f32) (xw : Vec F S64x4096 .f32) (xb : Vec F S1x64 .f32) : Vec F S1024x64 .f32 :=
  View.canon [⟨rO3, k0_pay5 (View.ld xw rW) (View.ld xb rB) (View.ld x3 rX)⟩,
    ⟨rO2, k0_pay4 (View.ld xw rW) (View.ld xb rB) (View.ld x2 rX)⟩,
    ⟨rO1, k0_pay3 (View.ld xw rW) (View.ld xb rB) (View.ld x1 rX)⟩,
    ⟨rO0, k0_pay2 (View.ld xw rW) (View.ld xb rB) (View.ld x0 rX)⟩]

/-- The four stored rectangles tile the output block, so every index of it lies in one of them. -/
theorem outBlock_cover (p3 p2 p1 p0 : Vec F S256x64 .f32) (y : S1024x64.Idx) :
    ∃ pc ∈ ([⟨rO3, p3⟩, ⟨rO2, p2⟩, ⟨rO1, p1⟩, ⟨rO0, p0⟩] : List (View.Piece (Elt F) S1024x64 .f32)), y ∈ pc.1.set :=
  View.cover_of_tiled [⟨rO3, p3⟩, ⟨rO2, p2⟩, ⟨rO1, p1⟩, ⟨rO0, p0⟩] S256x64.size (by rfl) y

/-! ## The body's triple -/

set_option maxHeartbeats 1000000 in
/-- The body on whole buffers: the six input buffers at read contents x0 … x3, xw, xb and the output buffer at anything;
    it ends with the inputs as they were and the output buffer at `outBlock` of them. -/
theorem sound_kernel (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S64x4096 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S256x4096 .f32) (xw : Vec F S64x4096 .f32) (xb : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ owns (c : Thread nD τ) arg6 fullShare xb
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw ∗ owns (c : Thread nD τ) arg6 fullShare xb
            ∗ owns (c : Thread nD τ) arg7 fullShare (outBlock x0 x1 x2 x3 xw xb)) -∗ K ⟨⟩))
      ⊢ wp frame (wpE (defs₀ (F := F)) Variants.none c none) E
          (cc0__matmul_body i arg1 harg1 arg2 harg2 arg3 harg3 arg4 harg4 arg5 harg5 arg6 harg6 arg7 harg7) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _ _ _ _)

end Cert.KernelIdeal.Run

end
-- ==== Proof.KI.Data.lean ====
/-
  The pipeline's proof data on one core. The arrays are as the region finds them. After the body at grid point t each
  input window's buffer still holds its block, and the output window's buffer holds the four products of that point.
  Between points the kernel keeps nothing of its own. The four windows on x only read it, so the whole of x, held at the
  full share at entry, is dealt among them in four quarter shares; w, the bias row and the output array are each one
  window's, at the full share.
-/
import proofs.«113524_g17729624998151_cont_sun_m_218_22_alg».proof.Proof.KI.Entry
import proofs.«113524_g17729624998151_cont_sun_m_218_22_alg».proof.Proof.KI.Body
import proofs.«113524_g17729624998151_cont_sun_m_218_22_alg».proof.Proof.LibSharedFrame

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.SharedFrame (qLL qLR qRL qRR pointsTo_quarter)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => qLL
    | ⟨1, _⟩ => qLR
    | ⟨2, _⟩ => qRL
    | ⟨3, _⟩ => qRR
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The arrays at entry, dealt to the windows -/

/-- The distinct buffers behind the seven windows' arrays: x, w, the bias row and the output array. -/
theorem arrRefs_eq : (Finset.univ.image (Pipeline.arrRef spec0) : Finset (Ref sig .tc)) = [main_arg0, main_arg1, main_call0_v0, main_v0].toFinset := by
  decide

/-- A conjunction over those four buffers, one by one. -/
theorem bigSep_arrRefs {M : Type} [URA M] (Φ : Ref sig .tc → sProp M) :
    bigSep (Finset.univ.image (Pipeline.arrRef spec0)) Φ = iprop(Φ main_arg0 ∗ Φ main_arg1 ∗ Φ main_call0_v0 ∗ Φ main_v0) :=
  bigSep_eq_bigSepL_of_eq [main_arg0, main_arg1, main_call0_v0, main_v0] arrRefs_eq (by decide) Φ

/-- Window w's array at entry, as a holding of the whole buffer behind it at the window's share. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := by
  have h : (cfg0.win w).arr.view.set = Finset.univ := (arr_whole0 w).set_eq_univ
  rw [h]; rfl

/-- Before any write-back a window's array is the entry contents. -/
theorem arrAt0 (c : Dev nD) (w : Fin cfg0.W) : (dats m 0 c).arrAt w 0 = V m c (Pipeline.arrRef spec0 w) := rfl

theorem share0 (c : Dev nD) : (dats m 0 c).share 0 = qLL := rfl
theorem share1 (c : Dev nD) : (dats m 0 c).share 1 = qLR := rfl
theorem share2 (c : Dev nD) : (dats m 0 c).share 2 = qRL := rfl
theorem share3 (c : Dev nD) : (dats m 0 c).share 3 = qRR := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The buffers behind the arrays, each whole at the full share at the entry contents, make the seven windows' arrays at
    entry: x's full share splits into the four quarters of windows 0 … 3. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0]
  rw [share0, share1, share2, share3, share4, share5, share6]
  simp only [View.set_whole, arrAt0]
  iintro ⟨Hx, Hw, Hb, Ho⟩
  ihave Hx := (pointsTo_quarter (Val := Elt F) Finset.univ (V m c main_arg0)) $$ Hx
  icases Hx with ⟨H0, H1, H2, H3⟩
  isplitl [H0]; · iexact H0
  isplitl [H1]; · iexact H1
  isplitl [H2]; · iexact H2
  isplitl [H3]; · iexact H3
  isplitl [Hw]; · iexact Hw
  isplitl [Hb]; · iexact Hb
  iexact Ho

end Cert.KernelIdeal.Run

end
-- ==== Proof.KI.Main.lean ====
/-
  The run of the kernel's program. At every grid point the body finds the six input buffers at their blocks and leaves
  them so, and leaves the output buffer at the four products of the point; the pipeline writes that buffer back into rows
  [1024·t, 1024·t + 1024) of the output array. So every weakly fair execution terminates with the three argument arrays
  unchanged and the output array at what the write-backs of the four points make of it.
-/
import proofs.«113524_g17729624998151_cont_sun_m_218_22_alg».proof.Proof.KI.Data

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each window's array ends at what the proof data compute for it and
    every other unscoped buffer as the region found it. -/
theorem run_main : θ_run defs (onTc (τ := τ) (main (F := F))) (s₀ m ρ) (Pipeline.FramePost cfgs (dats m) 0 (V m)) :=
  Cert.Lib.SharedFrame.frame_run_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- info: 'Cert.KernelIdeal.Run.run_main' depends on axioms: [propext, Classical.choice, Quot.sound] -/
#guard_msgs in #print axioms run_main

/-- The run with the output array named and the three arguments unchanged: x and w are windows' arrays the pipeline only
    reads, b is no window's array and bypasses the region. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 6,
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c)⟩) (run_main m ρ)

/-- The frame: the program runs to the end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Run

end
-- ==== Proof.PaySpec.lean ====
/-
  Entry (r, j) of one 256-row product of the kernel: row r of the loaded block of x against row j of w, summed over
  the 4096 positions of the contracted axis, plus entry j of the bias row. A grid point computes four such products,
  one per loaded block; all four have this one form.
-/
import proofs.«113524_g17729624998151_cont_sun_m_218_22_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx

/-! ## The operand indices of the block product

Both operands contract their axis 1. The left operand's axis 0 is the output row, the right operand's axis 0 is the
output column. -/

/-- The left operand's row is the output row. -/
theorem lhs_blockdot_0 (i : S256x64.Idx) (q : dot_S256x4096_S64x4096_S256x64_1_1_0_0_n_n.contr.Idx) :
    (dot_S256x4096_S64x4096_S256x64_1_1_0_0_n_n.lhsIdx i q 0).val = (i 0).val := by
  unfold DotDims.lhsIdx
  rw [dif_neg (show ¬(0 : Fin S256x4096.rank) ∈ dot_S256x4096_S64x4096_S256x64_1_1_0_0_n_n.lhsBatch by decide), dif_pos (show (0 : Fin S256x4096.rank) ∈ dot_S256x4096_S64x4096_S256x64_1_1_0_0_n_n.lhsNonContracting by decide)]
  rfl

/-- The left operand's column is the contraction position. -/
theorem lhs_blockdot_1 (i : S256x64.Idx) (q : dot_S256x4096_S64x4096_S256x64_1_1_0_0_n_n.contr.Idx) :
    (dot_S256x4096_S64x4096_S256x64_1_1_0_0_n_n.lhsIdx i q 1).val = (q ⟨0, by decide⟩).val :=
  dot_S256x4096_S64x4096_S256x64_1_1_0_0_n_n.lhsIdx_val_of_single rfl i q

/-- The right operand's row is the output column. -/
theorem rhs_blockdot_0 (i : S256x64.Idx) (q : dot_S256x4096_S64x4096_S256x64_1_1_0_0_n_n.contr.Idx) :
    (dot_S256x4096_S64x4096_S256x64_1_1_0_0_n_n.rhsIdx i q 0).val = (i 1).val := by
  unfold DotDims.rhsIdx
  rw [dif_neg (show ¬(0 : Fin S64x4096.rank) ∈ dot_S256x4096_S64x4096_S256x64_1_1_0_0_n_n.rhsBatch by decide), dif_pos (show (0 : Fin S64x4096.rank) ∈ dot_S256x4096_S64x4096_S256x64_1_1_0_0_n_n.rhsNonContracting by decide)]
  rfl

/-- The right operand's column is the contraction position. -/
theorem rhs_blockdot_1 (i : S256x64.Idx) (q : dot_S256x4096_S64x4096_S256x64_1_1_0_0_n_n.contr.Idx) :
    (dot_S256x4096_S64x4096_S256x64_1_1_0_0_n_n.rhsIdx i q 1).val = (q ⟨0, by decide⟩).val :=
  dot_S256x4096_S64x4096_S256x64_1_1_0_0_n_n.rhsIdx_val_of_single rfl i q

/-! ## The block product at an index -/

/-- The product of a 256 × 4096 block with the transpose of the 64 × 4096 array, accumulated into zero, at (r, j):
    the sum over k of block (r, k) times array (j, k). -/
theorem blockdot_apply (a : FVec Ideal S256x4096 .f32) (w : FVec Ideal S64x4096 .f32) (r : Fin 256) (j : Fin 64) :
    matmul (F := Ideal) dot_S256x4096_S64x4096_S256x64_1_1_0_0_n_n none a w (constant (F := Ideal) S256x64 .f32 0x00000000#32) (ix2 r j)
      = ∑ k : Fin 4096, a (ix2 r k) * w (ix2 j k) := by
  simp only [matmul]
  rw [Ideal.matmul_constant_zero_apply, ← Equiv.sum_comp (ValueIdx.contrEquiv1 dot_S256x4096_S64x4096_S256x64_1_1_0_0_n_n 4096 rfl rfl).symm]
  refine Finset.sum_congr rfl fun k _ => ?_
  have hk := ValueIdx.contrEquiv1_symm_val dot_S256x4096_S64x4096_S256x64_1_1_0_0_n_n 4096 rfl rfl k
  have el : dot_S256x4096_S64x4096_S256x64_1_1_0_0_n_n.lhsIdx (ix2 r j) ((ValueIdx.contrEquiv1 dot_S256x4096_S64x4096_S256x64_1_1_0_0_n_n 4096 rfl rfl).symm k) = ix2 r k := funext fun ax => Fin.ext (by
    match ax with
    | ⟨0, _⟩ => exact lhs_blockdot_0 _ _
    | ⟨1, _⟩ => exact (lhs_blockdot_1 _ _).trans hk)
  have er : dot_S256x4096_S64x4096_S256x64_1_1_0_0_n_n.rhsIdx (ix2 r j) ((ValueIdx.contrEquiv1 dot_S256x4096_S64x4096_S256x64_1_1_0_0_n_n 4096 rfl rfl).symm k) = ix2 j k := funext fun ax => Fin.ext (by
    match ax with
    | ⟨0, _⟩ => exact rhs_blockdot_0 _ _
    | ⟨1, _⟩ => exact (rhs_blockdot_1 _ _).trans hk)
  rw [el, er]

/-! ## The four payloads at an index -/

/-- Entry (r, j) of the first product: row r of the block against row j of w, plus b at j. -/
theorem pay2_at (v0 : Vec Ideal S64x4096 .f32) (v1 : Vec Ideal S1x64 .f32) (v3 : Vec Ideal S256x4096 .f32) (r : Fin 256) (j : Fin 64) :
    k0_pay2 (F := Ideal) v0 v1 v3 (ix2 r j) = (∑ k : Fin 4096, v3 (ix2 r k) * v0 (ix2 j k)) + v1 (ix2 (0 : Fin 1) j) := by
  unfold k0_pay2 k0_pay1
  rw [addf_apply, blockdot_apply, broadcastTo_1b_ab_apply, shapeCast_self]

/-- Entry (r, j) of the second product. -/
theorem pay3_at (v0 : Vec Ideal S64x4096 .f32) (v1 : Vec Ideal S1x64 .f32) (v3 : Vec Ideal S256x4096 .f32) (r : Fin 256) (j : Fin 64) :
    k0_pay3 (F := Ideal) v0 v1 v3 (ix2 r j) = (∑ k : Fin 4096, v3 (ix2 r k) * v0 (ix2 j k)) + v1 (ix2 (0 : Fin 1) j) :=
  pay2_at v0 v1 v3 r j

/-- Entry (r, j) of the third product. -/
theorem pay4_at (v0 : Vec Ideal S64x4096 .f32) (v1 : Vec Ideal S1x64 .f32) (v3 : Vec Ideal S256x4096 .f32) (r : Fin 256) (j : Fin 64) :
    k0_pay4 (F := Ideal) v0 v1 v3 (ix2 r j) = (∑ k : Fin 4096, v3 (ix2 r k) * v0 (ix2 j k)) + v1 (ix2 (0 : Fin 1) j) :=
  pay2_at v0 v1 v3 r j

/-- Entry (r, j) of the fourth product. -/
theorem pay5_at (v0 : Vec Ideal S64x4096 .f32) (v1 : Vec Ideal S1x64 .f32) (v3 : Vec Ideal S256x4096 .f32) (r : Fin 256) (j : Fin 64) :
    k0_pay5 (F := Ideal) v0 v1 v3 (ix2 r j) = (∑ k : Fin 4096, v3 (ix2 r k) * v0 (ix2 j k)) + v1 (ix2 (0 : Fin 1) j) :=
  pay2_at v0 v1 v3 r j

end Cert.KernelIdeal.PayValue

end
-- ==== Proof.Spec.lean ====
/-
  The function both programs compute, stated once over the argument arrays: the affine map
  out[r, j] = (Σ_k x[r, k] · w[j, k]) + b[j] on the extended reals, x of 4096 × 4096, w of 64 × 4096, b of 64.
  The sum is a finite sum in a commutative monoid, so no order or grouping of its terms is part of the statement.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 4096]⟩
abbrev SW : Shape := ⟨2, ![64, 4096]⟩
abbrev SB : Shape := ⟨1, ![64]⟩
abbrev SO : Shape := ⟨2, ![4096, 64]⟩

/-- Entry (r, j) of the affine map: row r of x against row j of w, plus entry j of b. -/
def affineAt (x : FVec Ideal SX .f32) (w : FVec Ideal SW .f32) (b : FVec Ideal SB .f32) (r : Fin 4096) (j : Fin 64) : EReal :=
  (∑ k : Fin 4096, x (ix2 r k) * w (ix2 j k)) + b (ix1 j)

/-- The affine map x · wᵀ + b as one function of the three arrays, index by index. -/
def affine (x : FVec Ideal SX .f32) (w : FVec Ideal SW .f32) (b : FVec Ideal SB .f32) : FVec Ideal SO .f32 :=
  fun i => affineAt x w b ⟨(i 0).val, (i 0).isLt⟩ ⟨(i 1).val, (i 1).isLt⟩

theorem affine_ix2 (x : FVec Ideal SX .f32) (w : FVec Ideal SW .f32) (b : FVec Ideal SB .f32) (r : Fin 4096) (j : Fin 64) :
    affine x w b (ix2 r j) = affineAt x w b r j := rfl

end Cert.Spec

end
-- ==== Proof.KI.Value.lean ====
/-
  The output array after the run, at the ideal instance. At grid point t the four stored products are rows
  [1024·t + 256·s, 1024·t + 256·s + 256) of the affine map x · wᵀ + b, s = 0, 1, 2, 3: block s of the point is rows
  [(4t + s)·256, (4t + s)·256 + 256) of x, and (4t + s)·256 = 1024·t + 256·s. The point's write-back puts them at rows
  [1024·t, 1024·t + 1024) of the output array, and the four points' blocks cover its 4096 rows. So the array ends at the
  affine map of the arrays as launched.
-/
import proofs.«113524_g17729624998151_cont_sun_m_218_22_alg».proof.Proof.KI.Main
import proofs.«113524_g17729624998151_cont_sun_m_218_22_alg».proof.Proof.PaySpec
import proofs.«113524_g17729624998151_cont_sun_m_218_22_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Run

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat Cfg Window)
open Cert.Spec (affine affineAt)

variable (m : (ℓ : Loc nD τ sig) → Buf (Elt Ideal) ℓ) (ρ : Dev nD → PrngReg)

theorem hz : (![0, 0] : Fin 2 → Nat) = fun _ => 0 := funext fun a => by fin_cases a <;> rfl

/-! ## One stored product is a band of rows of the affine map -/

/-- A product of the body, computed from a block that is rows [R, R + 256) of X, from W and from a bias row that is B laid
    as a row, is at (r, j) the affine map of X, W, B at any index i whose coordinates are (R + r, j). -/
theorem piece_at
    (pay : Vec Ideal S64x4096 .f32 → Vec Ideal S1x64 .f32 → Vec Ideal S256x4096 .f32 → FVec Ideal S256x64 .f32)
    (hpay : ∀ v0 v1 v3 (r : Fin 256) (j : Fin 64), pay v0 v1 v3 (ix2 r j) = (∑ k : Fin 4096, v3 (ix2 r k) * v0 (ix2 j k)) + v1 (ix2 (0 : Fin 1) j))
    (X : FVec Ideal S4096x4096 .f32) (W : FVec Ideal S64x4096 .f32) (B1 : FVec Ideal S1x64 .f32)
    (xs : Vec Ideal S256x4096 .f32) (xw : Vec Ideal S64x4096 .f32) (xb : Vec Ideal S1x64 .f32)
    (R : ℕ) (hR : R + 256 ≤ 4096)
    (hxs : ∀ (r : Fin 256) (k : Fin 4096), xs (ix2 r k) = X (ix2 (⟨R + r.val, by have := r.isLt; omega⟩ : Fin 4096) k))
    (hxw : xw = W) (hxb : xb = B1) (r : Fin 256) (j : Fin 64)
    (B : FVec Ideal S64 .f32) (hB : ∀ j : Fin 64, B1 (ix2 (0 : Fin 1) j) = B (ix1 j))
    (i : S4096x64.Idx) (hi0 : (i 0).val = R + r.val) (hi1 : (i 1).val = j.val) :
    pay (View.ld xw rW) (View.ld xb rB) (View.ld xs rX) (ix2 r j) = affine X W B i := by
  rw [View.ld_unit_zero (S := S64x4096) hz, View.ld_unit_zero (S := S1x64) hz, View.ld_unit_zero (S := S256x4096) hz, hpay]
  show _ = affineAt X W B ⟨(i 0).val, (i 0).isLt⟩ ⟨(i 1).val, (i 1).isLt⟩
  have e1 : (⟨(i 1).val, (i 1).isLt⟩ : Fin 64) = j := Fin.ext hi1
  have e0 : (⟨(i 0).val, (i 0).isLt⟩ : Fin 4096) = ⟨R + r.val, by have := r.isLt; omega⟩ := Fin.ext hi0
  rw [e0, e1]
  unfold affineAt
  rw [hxw, hxb, hB]
  exact congrArg (· + B (ix1 j)) (Finset.sum_congr rfl fun k _ => by rw [hxs])

/-! ## The windows' block indices, decided over the four points -/

theorem idx_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 4 :=
  (by decide +kernel : ∀ t : Fin grid0.N, _)

/-! ## The input blocks read at an index -/

/-- Window 0's block at point t is rows [(4t + 0)·256, (4t + 0)·256 + 256) of x. -/
theorem iblk0_at (c : Dev nD) (t : Fin cfg0.N) (r : Fin 256) (k : Fin 4096) (hR : (4 * t.val + 0) * 256 + r.val < 4096) :
    (iblk m c 0 t : Vec Ideal S256x4096 .f32) (ix2 r k) = V m c main_arg0 (ix2 (⟨(4 * t.val + 0) * 256 + r.val, hR⟩ : Fin 4096) k) := by
  show V m c main_arg0 (((cfg0.win 0).blk t).view.emb (ix2 r k)) = _
  refine congrArg (V m c main_arg0) (funext fun a => Fin.ext ?_)
  obtain ⟨e00, e01, e10, e11, e20, e21, e30, e31, -⟩ := idx_facts t
  match a with
  | ⟨0, _⟩ => show win0_0.index t (0 : Fin 2) * 256 + 1 * r.val = (4 * t.val + 0) * 256 + r.val; omega
  | ⟨1, _⟩ => show win0_0.index t (1 : Fin 2) * 4096 + 1 * k.val = k.val; omega

/-- Window 1's block at point t is rows [(4t + 1)·256, (4t + 1)·256 + 256) of x. -/
theorem iblk1_at (c : Dev nD) (t : Fin cfg0.N) (r : Fin 256) (k : Fin 4096) (hR : (4 * t.val + 1) * 256 + r.val < 4096) :
    (iblk m c 1 t : Vec Ideal S256x4096 .f32) (ix2 r k) = V m c main_arg0 (ix2 (⟨(4 * t.val + 1) * 256 + r.val, hR⟩ : Fin 4096) k) := by
  show V m c main_arg0 (((cfg0.win 1).blk t).view.emb (ix2 r k)) = _
  refine congrArg (V m c main_arg0) (funext fun a => Fin.ext ?_)
  obtain ⟨e00, e01, e10, e11, e20, e21, e30, e31, -⟩ := idx_facts t
  match a with
  | ⟨0, _⟩ => show win0_1.index t (0 : Fin 2) * 256 + 1 * r.val = (4 * t.val + 1) * 256 + r.val; omega
  | ⟨1, _⟩ => show win0_1.index t (1 : Fin 2) * 4096 + 1 * k.val = k.val; omega

/-- Window 2's block at point t is rows [(4t + 2)·256, (4t + 2)·256 + 256) of x. -/
theorem iblk2_at (c : Dev nD) (t : Fin cfg0.N) (r : Fin 256) (k : Fin 4096) (hR : (4 * t.val + 2) * 256 + r.val < 4096) :
    (iblk m c 2 t : Vec Ideal S256x4096 .f32) (ix2 r k) = V m c main_arg0 (ix2 (⟨(4 * t.val + 2) * 256 + r.val, hR⟩ : Fin 4096) k) := by
  show V m c main_arg0 (((cfg0.win 2).blk t).view.emb (ix2 r k)) = _
  refine congrArg (V m c main_arg0) (funext fun a => Fin.ext ?_)
  obtain ⟨e00, e01, e10, e11, e20, e21, e30, e31, -⟩ := idx_facts t
  match a with
  | ⟨0, _⟩ => show win0_2.index t (0 : Fin 2) * 256 + 1 * r.val = (4 * t.val + 2) * 256 + r.val; omega
  | ⟨1, _⟩ => show win0_2.index t (1 : Fin 2) * 4096 + 1 * k.val = k.val; omega

/-- Window 3's block at point t is rows [(4t + 3)·256, (4t + 3)·256 + 256) of x. -/
theorem iblk3_at (c : Dev nD) (t : Fin cfg0.N) (r : Fin 256) (k : Fin 4096) (hR : (4 * t.val + 3) * 256 + r.val < 4096) :
    (iblk m c 3 t : Vec Ideal S256x4096 .f32) (ix2 r k) = V m c main_arg0 (ix2 (⟨(4 * t.val + 3) * 256 + r.val, hR⟩ : Fin 4096) k) := by
  show V m c main_arg0 (((cfg0.win 3).blk t).view.emb (ix2 r k)) = _
  refine congrArg (V m c main_arg0) (funext fun a => Fin.ext ?_)
  obtain ⟨e00, e01, e10, e11, e20, e21, e30, e31, -⟩ := idx_facts t
  match a with
  | ⟨0, _⟩ => show win0_3.index t (0 : Fin 2) * 256 + 1 * r.val = (4 * t.val + 3) * 256 + r.val; omega
  | ⟨1, _⟩ => show win0_3.index t (1 : Fin 2) * 4096 + 1 * k.val = k.val; omega

/-- Window 4's block is all of w. -/
theorem iblk4_eq (c : Dev nD) (t : Fin cfg0.N) : (iblk m c 4 t : Vec Ideal S64x4096 .f32) = V m c main_arg1 := by
  funext y
  show V m c main_arg1 (((cfg0.win 4).blk t).view.emb y) = V m c main_arg1 y
  refine congrArg (V m c main_arg1) (funext fun a => Fin.ext ?_)
  obtain ⟨-, -, -, -, -, -, -, -, e40, e41, -⟩ := idx_facts t
  match a with
  | ⟨0, _⟩ => show win0_4.index t (0 : Fin 2) * 64 + 1 * (y 0).val = (y 0).val; omega
  | ⟨1, _⟩ => show win0_4.index t (1 : Fin 2) * 4096 + 1 * (y 1).val = (y 1).val; omega

/-- Window 5's block is the whole bias row. -/
theorem iblk5_eq (c : Dev nD) (t : Fin cfg0.N) : (iblk m c 5 t : Vec Ideal S1x64 .f32) = V m c main_call0_v0 := by
  funext y
  show V m c main_call0_v0 (((cfg0.win 5).blk t).view.emb y) = V m c main_call0_v0 y
  refine congrArg (V m c main_call0_v0) (funext fun a => Fin.ext ?_)
  obtain ⟨-, -, -, -, -, -, -, -, -, -, e50, e51, -⟩ := idx_facts t
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The bias row the region finds is the bias vector as launched, laid as a row. -/
theorem V_bias (c : Dev nD) (j : Fin 64) :
    (V m c main_call0_v0 : S1x64.Idx → EReal) (ix2 (0 : Fin 1) j) = (V m c main_arg2 : S64.Idx → EReal) (ix1 j) := by
  have e : (V m c main_call0_v0 : S1x64.Idx → EReal) = shapeCast S1x64 (m ((c.tc : Thread nD τ).loc main_arg2)) shapeCasts_S64_S1x64 := by
    dsimp only [V, hostOps0]; after_results; rfl
  rw [e, V_main_arg2]
  exact shapeCast_a_1a_apply _ _ 0 j

/-! ## What a point writes back, the cover, the array -/

/-- The function the output array ends at: the affine map of the arrays as the region finds them. -/
abbrev G (c : Dev nD) : FVec Ideal S4096x64 .f32 := affine (V m c main_arg0) (V m c main_arg1) (V m c main_arg2)

/-- What point t writes back is block t of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  obtain ⟨-, -, -, -, -, -, -, -, -, -, -, -, e60, e61, ht⟩ := idx_facts t
  funext y
  unfold outBlock
  refine View.canon_apply_of_pieces (Val := Elt Ideal) (fun y : S1024x64.Idx => G m c (((cfg0.win 6).blk t).view.emb y)) _ ?_ y (outBlock_cover _ _ _ _ y)
  intro p hp
  simp only [List.mem_cons, List.mem_singleton, List.not_mem_nil, or_false] at hp
  rcases hp with rfl | rfl | rfl | rfl
  · intro x
    obtain ⟨r, j, rfl⟩ : ∃ (r : Fin 256) (j : Fin 64), x = ix2 r j := ⟨x 0, x 1, eq_ix2 x⟩
    have hr : r.val < 256 := r.isLt
    refine piece_at k0_pay5 pay5_at (V m c main_arg0) (V m c main_arg1) (V m c main_call0_v0) _ _ _ ((4 * t.val + 3) * 256) (by omega)
      (fun r k => iblk3_at m c t r k (by have := r.isLt; omega)) (iblk4_eq m c t) (iblk5_eq m c t) r j (V m c main_arg2) (V_bias m c) _ ?_ ?_
    · show win0_6.index t (0 : Fin 2) * 1024 + 1 * (768 + 1 * r.val) = (4 * t.val + 3) * 256 + r.val; omega
    · show win0_6.index t (1 : Fin 2) * 64 + 1 * (0 + 1 * j.val) = j.val; omega
  · intro x
    obtain ⟨r, j, rfl⟩ : ∃ (r : Fin 256) (j : Fin 64), x = ix2 r j := ⟨x 0, x 1, eq_ix2 x⟩
    have hr : r.val < 256 := r.isLt
    refine piece_at k0_pay4 pay4_at (V m c main_arg0) (V m c main_arg1) (V m c main_call0_v0) _ _ _ ((4 * t.val + 2) * 256) (by omega)
      (fun r k => iblk2_at m c t r k (by have := r.isLt; omega)) (iblk4_eq m c t) (iblk5_eq m c t) r j (V m c main_arg2) (V_bias m c) _ ?_ ?_
    · show win0_6.index t (0 : Fin 2) * 1024 + 1 * (512 + 1 * r.val) = (4 * t.val + 2) * 256 + r.val; omega
    · show win0_6.index t (1 : Fin 2) * 64 + 1 * (0 + 1 * j.val) = j.val; omega
  · intro x
    obtain ⟨r, j, rfl⟩ : ∃ (r : Fin 256) (j : Fin 64), x = ix2 r j := ⟨x 0, x 1, eq_ix2 x⟩
    have hr : r.val < 256 := r.isLt
    refine piece_at k0_pay3 pay3_at (V m c main_arg0) (V m c main_arg1) (V m c main_call0_v0) _ _ _ ((4 * t.val + 1) * 256) (by omega)
      (fun r k => iblk1_at m c t r k (by have := r.isLt; omega)) (iblk4_eq m c t) (iblk5_eq m c t) r j (V m c main_arg2) (V_bias m c) _ ?_ ?_
    · show win0_6.index t (0 : Fin 2) * 1024 + 1 * (256 + 1 * r.val) = (4 * t.val + 1) * 256 + r.val; omega
    · show win0_6.index t (1 : Fin 2) * 64 + 1 * (0 + 1 * j.val) = j.val; omega
  · intro x
    obtain ⟨r, j, rfl⟩ : ∃ (r : Fin 256) (j : Fin 64), x = ix2 r j := ⟨x 0, x 1, eq_ix2 x⟩
    have hr : r.val < 256 := r.isLt
    refine piece_at k0_pay2 pay2_at (V m c main_arg0) (V m c main_arg1) (V m c main_call0_v0) _ _ _ ((4 * t.val + 0) * 256) (by omega)
      (fun r k => iblk0_at m c t r k (by have := r.isLt; omega)) (iblk4_eq m c t) (iblk5_eq m c t) r j (V m c main_arg2) (V_bias m c) _ ?_ ?_
    · show win0_6.index t (0 : Fin 2) * 1024 + 1 * (0 + 1 * r.val) = (4 * t.val + 0) * 256 + r.val; omega
    · show win0_6.index t (1 : Fin 2) * 64 + 1 * (0 + 1 * j.val) = j.val; omega

/-- An index of the output array is in point t's block iff each coordinate is in the block's range on its axis. -/
theorem mem_blk (t : Fin cfg0.N) (i : S4096x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v0).slice (win0_6.rect t)).set ↔ _
  rw [View.set_slice_whole, Rect.mem_set_unit]
  exact Iff.rfl

/-- Every 1024-row band of the output array is some point's block. -/
theorem idx_onto : ∀ q : Fin 4, ∃ t : Fin cfg0.N, win0_6.index t (0 : Fin 2) = q.val ∧ win0_6.index t (1 : Fin 2) = 0 :=
  (by decide +kernel : ∀ q : Fin 4, ∃ t : Fin grid0.N, win0_6.index t (0 : Fin 2) = q.val ∧ win0_6.index t (1 : Fin 2) = 0)

/-- Every index of the output array lies in the block of the point its row's band names. -/
theorem cover (i : S4096x64.Idx) : ∃ t : Fin cfg0.N, (cfg0.win 6).flush t = true ∧ i ∈ ((cfg0.win 6).blk t).view.set := by
  have hi0 : (i 0).val < 4096 := (i 0).isLt
  have hi1 : (i 1).val < 64 := (i 1).isLt
  obtain ⟨t, q0, q1⟩ := idx_onto ⟨(i 0).val / 1024, by omega⟩
  have q0' : win0_6.index t (0 : Fin 2) = (i 0).val / 1024 := q0
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- The output array after the run is the affine map of the arrays as the region finds them. -/
theorem final (c : Dev nD) : (dats m 0 c).arrAt 6 cfg0.N = G m c :=
  (dats m 0 c).arrAt_eq_of_cover 6 (G m c) (fun t _ => flushed_eq m c t) cover

/-- The run at the ideal instance: it terminates with the output array at x · wᵀ + b of the arrays as launched and the three
    arguments unchanged. -/
theorem run_value : θ_run defs (onTc (τ := τ) (main (F := Ideal))) ⟨m, fun _ => 0, ρ⟩ (fun r => ∀ c : Dev nD,
      r.2.mem ((c.tc : Thread nD τ).loc main_v0)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1.trans (final m c)).trans (by
      show affine (V m c main_arg0) (V m c main_arg1) (V m c main_arg2) = _
      rw [V_main_arg0, V_main_arg1, V_main_arg2]), (h c).2⟩) (run_named m ρ)

end Cert.KernelIdeal.Run

end
-- ==== Proof.RefSpec.lean ====
/-
  The reference transposes w and then contracts the second axis of x against the first axis of the transpose, so
  its entry (r, j) reads w at (j, k): it is the sum over k of x[r, k] · w[j, k]. The two broadcasts read b at j, and
  the addition on the extended reals is +. Hence the reference is the affine map x · wᵀ + b, entry by entry.
-/
import proofs.«113524_g17729624998151_cont_sun_m_218_22_alg».proof.Proof.Gen.ReferenceIdeal.Read
import proofs.«113524_g17729624998151_cont_sun_m_218_22_alg».proof.Proof.Spec

noncomputable section

namespace Cert.ReferenceIdeal.RefValue

open Cert.ReferenceIdeal Cert.ReferenceIdeal.Read Idealize.ShloMosaic Idealize.ShloMosaic.ValueIdx

/-- The left operand of the contraction is read at (r, k). -/
theorem lidx_eq (i : S4096x64.Idx) (k : Fin 4096) :
    lidx_main_v1 i k = ix2 (⟨(i 0).val, (i 0).isLt⟩ : Fin 4096) k :=
  funext fun a => Fin.ext (by match a with | ⟨0, _⟩ => rfl | ⟨1, _⟩ => rfl)

/-- The transpose turns the right operand's index (k, j) into w's index (j, k). -/
theorem ridx_eq (i : S4096x64.Idx) (k : Fin 4096) :
    idx_main_v0 (ridx_main_v1 i k) = ix2 (⟨(i 1).val, (i 1).isLt⟩ : Fin 64) k :=
  funext fun a => Fin.ext (by match a with | ⟨0, _⟩ => rfl | ⟨1, _⟩ => rfl)

/-- The two broadcasts read b at j. -/
theorem bidx_eq (i : S4096x64.Idx) :
    idx_main_v2 (idx_main_v3 i) = ix1 (⟨(i 1).val, (i 1).isLt⟩ : Fin 64) :=
  funext fun a => Fin.ext (by match a with | ⟨0, _⟩ => rfl)

/-- The reference program's result is the affine map x · wᵀ + b. -/
theorem ref_eq_affine (x : FVec Ideal S4096x4096 .f32) (w : FVec Ideal S64x4096 .f32) (b : FVec Ideal S64 .f32) :
    val_main_v4 (F := Ideal) x w b = Cert.Spec.affine x w b := by
  funext i
  rw [val_main_v4_apply, val_main_v1_apply, val_main_v3_apply, val_main_v2_apply, bidx_eq]
  simp only [val_main_v0_apply, lidx_eq, ridx_eq]
  rfl

end Cert.ReferenceIdeal.RefValue

end
-- ==== Proof.lean ====
/-
  The kernel computes out = x · wᵀ + b (x of 4096 × 4096, w of 64 × 4096, b of 64) on a grid of four points: at point t it
  reads the four consecutive 256-row blocks 4t, 4t + 1, 4t + 2, 4t + 3 of x through four windows on the one array x, multiplies
  each with wᵀ on the matrix unit into a zero accumulator, adds the bias row, and stores the four 256 × 64 products into the
  1024 × 64 output block that the pipeline writes back to rows [1024·t, 1024·t + 1024). The reference is
  jnp.dot(x, w.T) + b. On the extended reals both are, entry by entry, (Σ_k x[r, k] · w[j, k]) + b[j]: the same finite sum
  and the same addition, so no finiteness of the inputs is used.

  The three frames: the two kernel programs run to the end and leave x, w and b unchanged (the four windows on x only read it,
  each at a quarter of its share; the reshape of b writes another buffer); the reference program is five host operations.
  The idealization rewrote nothing, so `preserves` is `True`.
-/
import proofs.«113524_g17729624998151_cont_sun_m_218_22_alg».proof.Defs
import proofs.«113524_g17729624998151_cont_sun_m_218_22_alg».proof.Proof.Gen.Kernel
import proofs.«113524_g17729624998151_cont_sun_m_218_22_alg».proof.Proof.Gen.KernelIdeal
import proofs.«113524_g17729624998151_cont_sun_m_218_22_alg».proof.Proof.Gen.ReferenceIdeal
import proofs.«113524_g17729624998151_cont_sun_m_218_22_alg».proof.Proof.Gen.Pre_finite_inputs
import proofs.«113524_g17729624998151_cont_sun_m_218_22_alg».proof.Proof.Gen.ReferenceIdeal.Run
import proofs.«113524_g17729624998151_cont_sun_m_218_22_alg».proof.Proof.Gen.ReferenceIdeal.Read
import proofs.«113524_g17729624998151_cont_sun_m_218_22_alg».proof.Proof.KB.Main
import proofs.«113524_g17729624998151_cont_sun_m_218_22_alg».proof.Proof.KI.Value
import proofs.«113524_g17729624998151_cont_sun_m_218_22_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- The reference program is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on x, w and b both programs end with the same array: the kernel's output array is the affine map
    x · wᵀ + b of its arguments, and the reference's transpose, contraction, two broadcasts and addition are that map too. -/
theorem algebraic : Cert.algebraic_KernelIdeal_ReferenceIdeal := by
  intro m ρ m' ρ' _ hagree
  refine ⟨fun c => Cert.Spec.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_affine, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
